-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S256 : Shape := ⟨1, ![256]⟩
abbrev S1 : Shape := ⟨1, ![1]⟩
abbrev S128x128 : Shape := ⟨2, ![128, 128]⟩
abbrev S128 : Shape := ⟨1, ![128]⟩
abbrev S1x256 : Shape := ⟨2, ![1, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg11 : FVec F S1x256 .f32) (main_arg12 : FVec F S1 .f32) (main_v33 : IVec S_ 1) : IVec S_ 1 :=
  let main_v34 : FVec F S1x256 .f32 := Host.absf main_arg11
  let main_cst_12 : FVec F S_ .f32 := constant S_ .f32 0x7F800000#32
  let main_v35 : FVec F S1x256 .f32 := broadcastInDim S1x256 ![] bcast_S_S1x256 main_cst_12
  let main_v36 : IVec S1x256 1 := cmpf .olt main_v34 main_v35
  let main_c_13 : IVec S_ 1 := constantI S_ 1 1#1
  let main_v37 : IVec S_ 1 := (fun x v => Host.reduce IntOp.andi x v reducesTo_S1x256_S_d0_1 h_S_) main_v36 main_c_13
  let main_v38 : IVec S_ 1 := andi main_v33 main_v37
  let main_v39 : FVec F S1 .f32 := Host.absf main_arg12
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg8 : FVec F S128x128 .f32) (main_arg9 : FVec F S128x128 .f32) (main_arg10 : FVec F S128 .f32) (main_arg11 : FVec F S1x256 .f32) (main_arg12 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg11 main_arg12 main_v33

def fn {F : FTy → Type} [FloatOps F] (main_arg0 : FVec F S50000x128 .f32) (main_arg1 : IVec S800000 32) (main_arg2 : IVec S800000 32) (main_arg3 : IVec S256 32) (main_arg4 : IVec S1 32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S1x256 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg5
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_arg12 main_v13 main_v16
-- ==== Kernel.lean ====
abbrev S50000x128 : Shape := ⟨2, ![50000, 128]⟩
abbrev S800000 : Shape := ⟨1, ![800000]⟩
abbrev S256 : Shape := ⟨1, ![256]⟩
abbrev S1 : Shape := ⟨1, ![1]⟩
abbrev S128x128 : Shape := ⟨2, ![128, 128]⟩
abbrev S128 : Shape := ⟨1, ![128]⟩
abbrev S1x256 : Shape := ⟨2, ![1, 256]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S5000x128 : Shape := ⟨2, ![5000, 128]⟩
abbrev S1x128 : Shape := ⟨2, ![1, 128]⟩
abbrev S256x1 : Shape := ⟨2, ![256, 1]⟩
abbrev S256x128 : Shape := ⟨2, ![256, 128]⟩
abbrev S1x1 : Shape := ⟨2, ![1, 1]⟩

abbrev nBuf : Space → Nat
  | .hbm => 89
  | .vmem => 23
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S256, .i32⟩
  | .hbm, ⟨4, _⟩ => ⟨S1, .i32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S1x256, .f32⟩
  | .hbm, ⟨12, _⟩ => ⟨S1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S128x128, .f32⟩
  | .hbm, ⟨39, _⟩ => ⟨S128x128, .f32⟩
  | .hbm, ⟨40, _⟩ => ⟨S50000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S_, .f32⟩
  | .hbm, ⟨55, _⟩ => ⟨S800000, .f32⟩
  | .hbm, ⟨56, _⟩ => ⟨S_, .f32⟩
  | .hbm, ⟨57, _⟩ => ⟨S50000, .f32⟩
  | .hbm, ⟨58, _⟩ => ⟨S800000x1, .i32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x128, .f32⟩
  | .hbm, ⟨65, _⟩ => ⟨S50000x128, .f32⟩
  | .hbm, ⟨66, _⟩ => ⟨S128x128, .f32⟩
  | .hbm, ⟨67, _⟩ => ⟨S128x128, .f32⟩
  | .hbm, ⟨68, _⟩ => ⟨S50000x128, .f32⟩
  | .hbm, ⟨69, _⟩ => ⟨S_, .i32⟩
  | .hbm, ⟨70, _⟩ => ⟨S256, .i32⟩
  | .hbm, ⟨71, _⟩ => ⟨S256, .i1⟩
  | .hbm, ⟨72, _⟩ => ⟨S_, .i32⟩
  | .hbm, ⟨73, _⟩ => ⟨S256, .i32⟩
  | .hbm, ⟨74, _⟩ => ⟨S256, .i32⟩
  | .hbm, ⟨75, _⟩ => ⟨S256, .i32⟩
  | .hbm, ⟨76, _⟩ => ⟨S256x1, .i32⟩
  | .hbm, ⟨77, _⟩ => ⟨S256x128, .f32⟩
  | .hbm, ⟨78, _⟩ => ⟨S_, .i32⟩
  | .hbm, ⟨79, _⟩ => ⟨S1, .i32⟩
  | .hbm, ⟨80, _⟩ => ⟨S1, .i1⟩
  | .hbm, ⟨81, _⟩ => ⟨S_, .i32⟩
  | .hbm, ⟨82, _⟩ => ⟨S1, .i32⟩
  | .hbm, ⟨83, _⟩ => ⟨S1, .i32⟩
  | .hbm, ⟨84, _⟩ => ⟨S1, .i32⟩
  | .hbm, ⟨85, _⟩ => ⟨S1x1, .i32⟩
  | .hbm, ⟨86, _⟩ => ⟨S1x128, .f32⟩
  | .hbm, ⟨87, _⟩ => ⟨S256x1, .f32⟩
  | .hbm, ⟨88, _⟩ => ⟨S1x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S256x128, .f32⟩
  | .local _ .vmem, ⟨19, _⟩ => ⟨S1x128, .f32⟩
  | .local _ .vmem, ⟨20, _⟩ => ⟨S256x1, .f32⟩
  | .local _ .vmem, ⟨21, _⟩ => ⟨S1, .f32⟩
  | .local _ .vmem, ⟨22, _⟩ => ⟨S1x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_9 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_10 : Ref sig .tc := ⟨.hbm, 69, rfl⟩
abbrev main_v44 : Ref sig .tc := ⟨.hbm, 70, rfl⟩
abbrev main_v45 : Ref sig .tc := ⟨.hbm, 71, rfl⟩
abbrev main_c_11 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_12 : Ref sig .tc := ⟨.hbm, 78, rfl⟩
abbrev main_v51 : Ref sig .tc := ⟨.hbm, 79, rfl⟩
abbrev main_v52 : Ref sig .tc := ⟨.hbm, 80, rfl⟩
abbrev main_c_13 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S256 : S_.BroadcastsInDim S256 (![] : Fin 0 → Fin S256.rank)
  bcast_S256_S256x1_0 : S256.BroadcastsInDim S256x1 (![0] : Fin 1 → Fin S256x1.rank)
  bcast_S_S1 : S_.BroadcastsInDim S1 (![] : Fin 0 → Fin S1.rank)
  bcast_S1_S1x1_0 : S1.BroadcastsInDim S1x1 (![0] : Fin 1 → Fin S1x1.rank)
  transposes_S1x256_S256x1_1_0 : S1x256.Transposes [1, 0] S256x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S256x128_S128 : S256x128.Reduces [0] S128
  concatenates_S1x128_S1x128_S1x256_d1 : Shape.Concatenates [S1x128, S1x128] S1x256 1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1_S1_0 : ∀ a, (![0] : Fin 1 → Nat) a + S1.size a ≤ S1.size a
  h_S1 : 0 < S1.numel
  shapeCasts_S1_S1x1 : S1.ShapeCasts S1x1
  inb_S1x1_S1x1_0_0 : ∀ a, (![0, 0] : Fin 2 → Nat) a + S1x1.size a ≤ S1x1.size a
  h_S1x1 : 0 < S1x1.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S256x1_S256x128_1_0_n_n_0_1_1128_wf : GatherDims.WF S50000x128 S256x1 S256x128 [1] [0] [] [0] [] 1 ![1, 128]
  gather_S50000x128_S1x1_S1x128_1_0_n_n_0_1_1128_wf : GatherDims.WF S50000x128 S1x1 S1x128 [1] [0] [] [0] [] 1 ![1, 128]
  dot_S1x256_S256x1_S1x1_1_0_0_1_n_n_wf : DotDims.WF S1x256 S256x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x128.size a ≤ S256x128.size a
  hwx2_0 : ∀ i : grid2.Coords, EltTy.bits .f32 = 32 ∨ (Rect.block (s := S256x128) S256x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x1.size a ≤ S256x1.size a
  hwx2_2 : ∀ i : grid2.Coords, EltTy.bits .f32 = 32 ∨ (Rect.block (s := S256x1) S256x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1.size a ≤ S1.size a
  hwx2_3 : ∀ i : grid2.Coords, EltTy.bits .f32 = 32 ∨ (Rect.block (s := S1) S1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S256x1_S256x128_1_0_n_n_0_1_1128 : GatherDims S50000x128 S256x1 S256x128 where
  offsetDims := [1]
  collapsedSliceDims := [0]
  operandBatchingDims := []
  startIndicesBatchingDims := []
  startIndexMap := [0]
  indexVectorDim := 1
  sliceSizes := ![1, 128]
  wf := gather_S50000x128_S256x1_S256x128_1_0_n_n_0_1_1128_wf
def gather_S50000x128_S1x1_S1x128_1_0_n_n_0_1_1128 : GatherDims S50000x128 S1x1 S1x128 where
  offsetDims := [1]
  collapsedSliceDims := [0]
  operandBatchingDims := []
  startIndicesBatchingDims := []
  startIndexMap := [0]
  indexVectorDim := 1
  sliceSizes := ![1, 128]
  wf := gather_S50000x128_S1x1_S1x128_1_0_n_n_0_1_1128_wf
def dot_S1x256_S256x1_S1x1_1_0_0_1_n_n : DotDims S1x256 S256x1 S1x1 where
  lhsContracting := [1]
  rhsContracting := [0]
  lhsNonContracting := [0]
  rhsNonContracting := [1]
  lhsBatch := []
  rhsBatch := []
  wf := dot_S1x256_S256x1_S1x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50) S256x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v57) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S256x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x1.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S256 : Shape := ⟨1, ![256]⟩
abbrev S1 : Shape := ⟨1, ![1]⟩
abbrev S128x128 : Shape := ⟨2, ![128, 128]⟩
abbrev S128 : Shape := ⟨1, ![128]⟩
abbrev S1x256 : Shape := ⟨2, ![1, 256]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S256x1 : Shape := ⟨2, ![256, 1]⟩
abbrev S256x128 : Shape := ⟨2, ![256, 128]⟩
abbrev S1x1 : Shape := ⟨2, ![1, 1]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S256, .i32⟩
  | .hbm, ⟨4, _⟩ => ⟨S1, .i32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S1x256, .f32⟩
  | .hbm, ⟨12, _⟩ => ⟨S1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S128x128, .f32⟩
  | .hbm, ⟨39, _⟩ => ⟨S50000x128, .f32⟩
  | .hbm, ⟨40, _⟩ => ⟨S128x128, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S50000, .f32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S128x128, .f32⟩
  | .hbm, ⟨75, _⟩ => ⟨S50000x128, .f32⟩
  | .hbm, ⟨76, _⟩ => ⟨S128x128, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .f32⟩
  | .hbm, ⟨85, _⟩ => ⟨S_, .i32⟩
  | .hbm, ⟨86, _⟩ => ⟨S256, .i32⟩
  | .hbm, ⟨87, _⟩ => ⟨S256, .i1⟩
  | .hbm, ⟨88, _⟩ => ⟨S_, .i32⟩
  | .hbm, ⟨89, _⟩ => ⟨S256, .i32⟩
  | .hbm, ⟨90, _⟩ => ⟨S256, .i32⟩
  | .hbm, ⟨91, _⟩ => ⟨S256, .i32⟩
  | .hbm, ⟨92, _⟩ => ⟨S256x1, .i32⟩
  | .hbm, ⟨93, _⟩ => ⟨S256x128, .f32⟩
  | .hbm, ⟨94, _⟩ => ⟨S_, .i32⟩
  | .hbm, ⟨95, _⟩ => ⟨S1, .i32⟩
  | .hbm, ⟨96, _⟩ => ⟨S1, .i1⟩
  | .hbm, ⟨97, _⟩ => ⟨S_, .i32⟩
  | .hbm, ⟨98, _⟩ => ⟨S1, .i32⟩
  | .hbm, ⟨99, _⟩ => ⟨S1, .i32⟩
  | .hbm, ⟨100, _⟩ => ⟨S1, .i32⟩
  | .hbm, ⟨101, _⟩ => ⟨S1x1, .i32⟩
  | .hbm, ⟨102, _⟩ => ⟨S1x128, .f32⟩
  | .hbm, ⟨103, _⟩ => ⟨S_, .f32⟩
  | .hbm, ⟨104, _⟩ => ⟨S128, .f32⟩
  | .hbm, ⟨105, _⟩ => ⟨S1x128, .f32⟩
  | .hbm, ⟨106, _⟩ => ⟨S1x256, .f32⟩
  | .hbm, ⟨107, _⟩ => ⟨S256x1, .f32⟩
  | .hbm, ⟨108, _⟩ => ⟨S1x1, .f32⟩
  | .hbm, ⟨109, _⟩ => ⟨S1x1, .f32⟩
  | .hbm, ⟨110, _⟩ => ⟨S1x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_c_4 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_cst_8 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call1_cst : Ref sig .tc := ⟨.hbm, 82, rfl⟩
abbrev main_call1_v0 : Ref sig .tc := ⟨.hbm, 83, rfl⟩
abbrev main_v55 : Ref sig .tc := ⟨.hbm, 84, rfl⟩
abbrev main_c_10 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_12 : Ref sig .tc := ⟨.hbm, 94, rfl⟩
abbrev main_v63 : Ref sig .tc := ⟨.hbm, 95, rfl⟩
abbrev main_v64 : Ref sig .tc := ⟨.hbm, 96, rfl⟩
abbrev main_c_13 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_14 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S256 : S_.BroadcastsInDim S256 (![] : Fin 0 → Fin S256.rank)
  bcast_S256_S256x1_0 : S256.BroadcastsInDim S256x1 (![0] : Fin 1 → Fin S256x1.rank)
  bcast_S_S1 : S_.BroadcastsInDim S1 (![] : Fin 0 → Fin S1.rank)
  bcast_S1_S1x1_0 : S1.BroadcastsInDim S1x1 (![0] : Fin 1 → Fin S1x1.rank)
  reducesTo_S256x128_S128_d0 : S256x128.ReducesTo [0] S128
  h_S_ : 0 < S_.numel
  concatenates_S1x128_S1x128_S1x256_d1 : Shape.Concatenates [S1x128, S1x128] S1x256 1
  transposes_S1x256_S256x1_1_0 : S1x256.Transposes [1, 0] S256x1
  bcast_S1_S1x1_1 : S1.BroadcastsInDim S1x1 (![1] : Fin 1 → Fin S1x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S256x1_S256x128_1_0_n_n_0_1_1128_wf : GatherDims.WF S50000x128 S256x1 S256x128 [1] [0] [] [0] [] 1 ![1, 128]
  gather_S50000x128_S1x1_S1x128_1_0_n_n_0_1_1128_wf : GatherDims.WF S50000x128 S1x1 S1x128 [1] [0] [] [0] [] 1 ![1, 128]
  dot_S1x256_S256x1_S1x1_1_0_0_1_n_n_wf : DotDims.WF S1x256 S256x1 S1x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S256x1_S256x128_1_0_n_n_0_1_1128 : GatherDims S50000x128 S256x1 S256x128 where
  offsetDims := [1]
  collapsedSliceDims := [0]
  operandBatchingDims := []
  startIndicesBatchingDims := []
  startIndexMap := [0]
  indexVectorDim := 1
  sliceSizes := ![1, 128]
  wf := gather_S50000x128_S256x1_S256x128_1_0_n_n_0_1_1128_wf
def gather_S50000x128_S1x1_S1x128_1_0_n_n_0_1_1128 : GatherDims S50000x128 S1x1 S1x128 where
  offsetDims := [1]
  collapsedSliceDims := [0]
  operandBatchingDims := []
  startIndicesBatchingDims := []
  startIndexMap := [0]
  indexVectorDim := 1
  sliceSizes := ![1, 128]
  wf := gather_S50000x128_S1x1_S1x128_1_0_n_n_0_1_1128_wf
def dot_S1x256_S256x1_S1x1_1_0_0_1_n_n : DotDims S1x256 S256x1 S1x1 where
  lhsContracting := [1]
  rhsContracting := [0]
  lhsNonContracting := [0]
  rhsNonContracting := [1]
  lhsBatch := []
  rhsBatch := []
  wf := dot_S1x256_S256x1_S1x1_1_0_0_1_n_n_wf

class Facts : Prop extends Facts₀ where

variable [Facts]
-- ==== Proof.Net.lean ====
/-
  The network both programs compute, cut into its stages, each a pure function of array contents:
  the mean of the in-neighbours' rows (a gather along the edge sources, a scatter-add along the edge
  targets, divided by the in-degree clamped below at one), one graph-convolution layer
  (own rows times a weight matrix, plus neighbour means times another, plus a bias row, clamped below at
  zero), the rows picked for the readout, and the readout itself (the column maxima of the picked state rows
  laid beside the action row, times a weight column, plus a bias). The weight matrices enter already transposed.
  The stages are stated in the host program's own operations, so the reference's composed result is their
  composition by unfolding; the kernel program's regions are shown to compute the same stages.
-/
import proofs.«173096_j90443421319518_1_alg».proof.ReferenceIdeal
import proofs.«173096_j90443421319518_1_alg».proof.Proof.Gen.ReferenceIdeal

noncomputable section

namespace Cert.Net

open Idealize.ShloMosaic Cert.ReferenceIdeal Cert.ReferenceIdeal.Gen

variable {F : FTy → Type} [FloatOps F]

/-- The mean of each node's in-neighbour rows: row `n` is the sum of `feat`'s rows at the sources of the edges
    whose target is `n`, divided by the number of such edges, or by one when there is none; a negative source id is
    counted back from the node count (50000) before the rows are gathered. -/
def meanAgg (feat : (⟨S50000x128, .f32⟩ : BufTy).Contents (Elt F)) (src dst : (⟨S800000, .i32⟩ : BufTy).Contents (Elt F)) : (⟨S50000x128, .f32⟩ : BufTy).Contents (Elt F) :=
  (Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (Host.gather gather_S50000x128_S800000x1_S800000x128_1_0_n_n_0_1_1128 feat (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))) (broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))) (broadcastInDim S50000 ![] bcast_S_S50000 (constant S_ .f32 0x3F800000#32))))))

/-- One layer: `max (x · ws + hn · wn + b, 0)`, the products contracting the feature axis, the bias row `b`
    added to every node's row. -/
def layer (x hn : (⟨S50000x128, .f32⟩ : BufTy).Contents (Elt F)) (ws wn : (⟨S128x128, .f32⟩ : BufTy).Contents (Elt F)) (b : (⟨S128, .f32⟩ : BufTy).Contents (Elt F)) : (⟨S50000x128, .f32⟩ : BufTy).Contents (Elt F) :=
  (maximumf (addf (addf (Host.dotGeneral dot_S50000x128_S128x128_S50000x128_1_0_0_1_n_n none x ws) (Host.dotGeneral dot_S50000x128_S128x128_S50000x128_1_0_0_1_n_n none hn wn)) (broadcastInDim S50000x128 ![0, 1] bcast_S1x128_S50000x128_0_1 (broadcastInDim S1x128 ![1] bcast_S128_S1x128_1 b))) (broadcastInDim S50000x128 ![] bcast_S_S50000x128 (constant S_ .f32 0x00000000#32)))

/-- A square weight matrix transposed. -/
def tr (w : (⟨S128x128, .f32⟩ : BufTy).Contents (Elt F)) : (⟨S128x128, .f32⟩ : BufTy).Contents (Elt F) :=
  (transpose S128x128 [1, 0] w transposes_S128x128_S128x128_1_0)

/-- The 256 state nodes' rows of `h`. -/
def stateRows (h : (⟨S50000x128, .f32⟩ : BufTy).Contents (Elt F)) (st : (⟨S256, .i32⟩ : BufTy).Contents (Elt F)) : (⟨S256x128, .f32⟩ : BufTy).Contents (Elt F) :=
  (Host.gather gather_S50000x128_S256x1_S256x128_1_0_n_n_0_1_1128 h (broadcastInDim S256x1 ![0] bcast_S256_S256x1_0 (select (cmpi .slt st (broadcastInDim S256 ![] bcast_S_S256 (constantI S_ 32 0#32))) (addi st (broadcastInDim S256 ![] bcast_S_S256 (constantI S_ 32 50000#32))) st)))

/-- The action node's row of `h`. -/
def actionRow (h : (⟨S50000x128, .f32⟩ : BufTy).Contents (Elt F)) (ac : (⟨S1, .i32⟩ : BufTy).Contents (Elt F)) : (⟨S1x128, .f32⟩ : BufTy).Contents (Elt F) :=
  (Host.gather gather_S50000x128_S1x1_S1x128_1_0_n_n_0_1_1128 h (broadcastInDim S1x1 ![0] bcast_S1_S1x1_0 (select (cmpi .slt ac (broadcastInDim S1 ![] bcast_S_S1 (constantI S_ 32 0#32))) (addi ac (broadcastInDim S1 ![] bcast_S_S1 (constantI S_ 32 50000#32))) ac)))

/-- The readout weights as a column. -/
def trCol (w : (⟨S1x256, .f32⟩ : BufTy).Contents (Elt F)) : (⟨S256x1, .f32⟩ : BufTy).Contents (Elt F) :=
  (transpose S256x1 [1, 0] w transposes_S1x256_S256x1_1_0)

/-- The readout: the column maxima of the state rows beside the action row, times the weight column, plus the bias. -/
def head (sv : (⟨S256x128, .f32⟩ : BufTy).Contents (Elt F)) (av : (⟨S1x128, .f32⟩ : BufTy).Contents (Elt F)) (w : (⟨S256x1, .f32⟩ : BufTy).Contents (Elt F)) (b : (⟨S1, .f32⟩ : BufTy).Contents (Elt F)) : (⟨S1x1, .f32⟩ : BufTy).Contents (Elt F) :=
  addf (Host.dotGeneral dot_S1x256_S256x1_S1x1_1_0_0_1_n_n none (concatenate S1x256 1 [⟨S1x128, (broadcastInDim S1x128 ![1] bcast_S128_S1x128_1 (Host.reduce FloatOps.maximumf sv (constant S_ .f32 0xFF800000#32) reducesTo_S256x128_S128_d0 h_S_))⟩, ⟨S1x128, av⟩] concatenates_S1x128_S1x128_S1x256_d1) w) (broadcastInDim S1x1 ![1] bcast_S1_S1x1_1 b)

/-- Two layers over the same graph, then the readout at the picked rows. -/
def net (x : (⟨S50000x128, .f32⟩ : BufTy).Contents (Elt F)) (src dst : (⟨S800000, .i32⟩ : BufTy).Contents (Elt F)) (st : (⟨S256, .i32⟩ : BufTy).Contents (Elt F)) (ac : (⟨S1, .i32⟩ : BufTy).Contents (Elt F))
    (w1s w1n : (⟨S128x128, .f32⟩ : BufTy).Contents (Elt F)) (b1 : (⟨S128, .f32⟩ : BufTy).Contents (Elt F)) (w2s w2n : (⟨S128x128, .f32⟩ : BufTy).Contents (Elt F)) (b2 : (⟨S128, .f32⟩ : BufTy).Contents (Elt F))
    (wfc : (⟨S1x256, .f32⟩ : BufTy).Contents (Elt F)) (bfc : (⟨S1, .f32⟩ : BufTy).Contents (Elt F)) : (⟨S1x1, .f32⟩ : BufTy).Contents (Elt F) :=
  head (stateRows (layer (layer x (meanAgg x src dst) (tr w1s) (tr w1n) b1) (meanAgg (layer x (meanAgg x src dst) (tr w1s) (tr w1n) b1) src dst) (tr w2s) (tr w2n) b2) st)
    (actionRow (layer (layer x (meanAgg x src dst) (tr w1s) (tr w1n) b1) (meanAgg (layer x (meanAgg x src dst) (tr w1s) (tr w1n) b1) src dst) (tr w2s) (tr w2n) b2) ac)
    (trCol wfc) bfc

end Cert.Net

end
-- ==== Proof.LayerIdx.lean ====
/-
  One entry of a layer, and the two places it is read from.
  Entry (r, q) of a layer's output is  max (∑ₖ x[r,k]·ws[k,q] + ∑ₖ hn[r,k]·wn[k,q] + b[q], 0):
  the host's contraction of the feature axis and the kernel's matrix unit fed from a zero accumulator are the same
  finite sum over the extended reals, a change of float format is the identity there, and the bias row is read at the
  column. The same entry is what the whole-array stage `Net.layer` holds at (r, q) and what a kernel body's stored
  block holds at (p, q) of its 5000-row input blocks.
-/
import proofs.«173096_j90443421319518_1_alg».proof.Proof.Net
import proofs.«173096_j90443421319518_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.LayerIdx

open Idealize.ShloMosaic Idealize.ShloMosaic.ValueIdx
open scoped BigOperators

/-- Entry (r, q) of a layer over `R` rows of 128 features. -/
def entry (R : Nat) (x hn : (⟨2, ![R, 128]⟩ : Shape).Idx → EReal) (ws wn : (⟨2, ![128, 128]⟩ : Shape).Idx → EReal)
    (b : (⟨1, ![128]⟩ : Shape).Idx → EReal) (r : Fin R) (q : Fin 128) : EReal :=
  max ((∑ k : Fin 128, x (ix2 r k) * ws (ix2 k q)) + (∑ k : Fin 128, hn (ix2 r k) * wn (ix2 k q)) + b (ix1 q)) 0

/-! ## The kernel's matrix product at an index

The dot record contracts the left operand's feature axis against the right operand's row axis; at output index (p, q)
and contraction position k the operand indices are (p, k) and (k, q), coordinate by coordinate. -/

private theorem kl0 (j : Cert.KernelIdeal.S5000x128.Idx)
    (k : Cert.KernelIdeal.dot_S5000x128_S128x128_S5000x128_1_0_0_1_n_n.contr.Idx) :
    (Cert.KernelIdeal.dot_S5000x128_S128x128_S5000x128_1_0_0_1_n_n.lhsIdx j k 0).val = (j 0).val := rfl

private theorem kl1 (j : Cert.KernelIdeal.S5000x128.Idx)
    (k : Cert.KernelIdeal.dot_S5000x128_S128x128_S5000x128_1_0_0_1_n_n.contr.Idx) :
    (Cert.KernelIdeal.dot_S5000x128_S128x128_S5000x128_1_0_0_1_n_n.lhsIdx j k 1).val = (k ⟨0, by decide⟩).val := rfl

private theorem kr0 (j : Cert.KernelIdeal.S5000x128.Idx)
    (k : Cert.KernelIdeal.dot_S5000x128_S128x128_S5000x128_1_0_0_1_n_n.contr.Idx) :
    (Cert.KernelIdeal.dot_S5000x128_S128x128_S5000x128_1_0_0_1_n_n.rhsIdx j k 0).val = (k ⟨0, by decide⟩).val := rfl

private theorem kr1 (j : Cert.KernelIdeal.S5000x128.Idx)
    (k : Cert.KernelIdeal.dot_S5000x128_S128x128_S5000x128_1_0_0_1_n_n.contr.Idx) :
    (Cert.KernelIdeal.dot_S5000x128_S128x128_S5000x128_1_0_0_1_n_n.rhsIdx j k 1).val = (j 1).val := rfl

/-- Fed from a zero accumulator, the matrix unit's result at (p, q) is the finite sum ∑ₖ a[p,k]·w[k,q]: the sum over the
    one-axis contraction index is carried to a sum over `Fin 128` along the bijection between them. -/
private theorem matmulK_apply {φ₁ φ₂ : FTy} (a : FVec Ideal Cert.KernelIdeal.S5000x128 φ₁) (w : FVec Ideal Cert.KernelIdeal.S128x128 φ₂)
    (p : Fin 5000) (q : Fin 128) :
    matmul Cert.KernelIdeal.dot_S5000x128_S128x128_S5000x128_1_0_0_1_n_n none a w
        (constant (F := Ideal) Cert.KernelIdeal.S5000x128 .f32 0x00000000#32) (ix2 p q)
      = ∑ k : Fin 128, a (ix2 p k) * w (ix2 k q) := by
  simp only [matmul]
  rw [Ideal.matmul_constant_zero_apply,
    ← Equiv.sum_comp (contrEquiv1 Cert.KernelIdeal.dot_S5000x128_S128x128_S5000x128_1_0_0_1_n_n 128 rfl rfl).symm]
  refine Finset.sum_congr rfl fun k _ => ?_
  have hk := contrEquiv1_symm_val Cert.KernelIdeal.dot_S5000x128_S128x128_S5000x128_1_0_0_1_n_n 128 rfl rfl k
  have hl : Cert.KernelIdeal.dot_S5000x128_S128x128_S5000x128_1_0_0_1_n_n.lhsIdx (ix2 p q)
      ((contrEquiv1 Cert.KernelIdeal.dot_S5000x128_S128x128_S5000x128_1_0_0_1_n_n 128 rfl rfl).symm k) = ix2 p k :=
    funext fun ax => Fin.ext (by
      match ax with
      | ⟨0, _⟩ => exact kl0 _ _
      | ⟨1, _⟩ => exact (kl1 _ _).trans hk)
  have hr : Cert.KernelIdeal.dot_S5000x128_S128x128_S5000x128_1_0_0_1_n_n.rhsIdx (ix2 p q)
      ((contrEquiv1 Cert.KernelIdeal.dot_S5000x128_S128x128_S5000x128_1_0_0_1_n_n 128 rfl rfl).symm k) = ix2 k q :=
    funext fun ax => Fin.ext (by
      match ax with
      | ⟨0, _⟩ => exact (kr0 _ _).trans hk
      | ⟨1, _⟩ => exact kr1 _ _)
  rw [hl, hr]

/-! ## The host's contraction at an index

The same for the whole-array record over 50000 rows. -/

private theorem rl0 (j : Cert.ReferenceIdeal.S50000x128.Idx)
    (k : Cert.ReferenceIdeal.dot_S50000x128_S128x128_S50000x128_1_0_0_1_n_n.contr.Idx) :
    (Cert.ReferenceIdeal.dot_S50000x128_S128x128_S50000x128_1_0_0_1_n_n.lhsIdx j k 0).val = (j 0).val := rfl

private theorem rl1 (j : Cert.ReferenceIdeal.S50000x128.Idx)
    (k : Cert.ReferenceIdeal.dot_S50000x128_S128x128_S50000x128_1_0_0_1_n_n.contr.Idx) :
    (Cert.ReferenceIdeal.dot_S50000x128_S128x128_S50000x128_1_0_0_1_n_n.lhsIdx j k 1).val = (k ⟨0, by decide⟩).val := rfl

private theorem rr0 (j : Cert.ReferenceIdeal.S50000x128.Idx)
    (k : Cert.ReferenceIdeal.dot_S50000x128_S128x128_S50000x128_1_0_0_1_n_n.contr.Idx) :
    (Cert.ReferenceIdeal.dot_S50000x128_S128x128_S50000x128_1_0_0_1_n_n.rhsIdx j k 0).val = (k ⟨0, by decide⟩).val := rfl

private theorem rr1 (j : Cert.ReferenceIdeal.S50000x128.Idx)
    (k : Cert.ReferenceIdeal.dot_S50000x128_S128x128_S50000x128_1_0_0_1_n_n.contr.Idx) :
    (Cert.ReferenceIdeal.dot_S50000x128_S128x128_S50000x128_1_0_0_1_n_n.rhsIdx j k 1).val = (j 1).val := rfl

/-- The host's contraction at (r, q) is the finite sum ∑ₖ a[r,k]·w[k,q]. -/
private theorem dotR_apply {φ₁ φ₂ : FTy} (a : FVec Ideal Cert.ReferenceIdeal.S50000x128 φ₁) (w : FVec Ideal Cert.ReferenceIdeal.S128x128 φ₂)
    (r : Fin 50000) (q : Fin 128) :
    Host.dotGeneral (F := Ideal) Cert.ReferenceIdeal.dot_S50000x128_S128x128_S50000x128_1_0_0_1_n_n none a w (ix2 r q)
      = ∑ k : Fin 128, a (ix2 r k) * w (ix2 k q) := by
  simp only [Host.dotGeneral]
  rw [Ideal.dotGeneral_apply,
    ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have hl : Cert.ReferenceIdeal.dot_S50000x128_S128x128_S50000x128_1_0_0_1_n_n.lhsIdx (ix2 r q)
      ((contrEquiv1 Cert.ReferenceIdeal.dot_S50000x128_S128x128_S50000x128_1_0_0_1_n_n 128 rfl rfl).symm k) = ix2 r k :=
    funext fun ax => Fin.ext (by
      match ax with
      | ⟨0, _⟩ => exact rl0 _ _
      | ⟨1, _⟩ => exact (rl1 _ _).trans hk)
  have hr : Cert.ReferenceIdeal.dot_S50000x128_S128x128_S50000x128_1_0_0_1_n_n.rhsIdx (ix2 r q)
      ((contrEquiv1 Cert.ReferenceIdeal.dot_S50000x128_S128x128_S50000x128_1_0_0_1_n_n 128 rfl rfl).symm k) = ix2 k q :=
    funext fun ax => Fin.ext (by
      match ax with
      | ⟨0, _⟩ => exact (rr0 _ _).trans hk
      | ⟨1, _⟩ => exact rr1 _ _)
  rw [hl, hr]

/-- The bias row laid as a one-row matrix and repeated over all rows reads, at (r, q), the bias at q. -/
private theorem biasR_apply (b : Vec Ideal Cert.ReferenceIdeal.S128 .f32)
    (h : Cert.ReferenceIdeal.S1x128.BroadcastsInDim Cert.ReferenceIdeal.S50000x128 ![0, 1])
    (h' : Cert.ReferenceIdeal.S128.BroadcastsInDim Cert.ReferenceIdeal.S1x128 ![1]) (r : Fin 50000) (q : Fin 128) :
    broadcastInDim Cert.ReferenceIdeal.S50000x128 ![0, 1] h
        (broadcastInDim Cert.ReferenceIdeal.S1x128 ![1] h' b) (ix2 r q) = b (ix1 q) := by
  rw [broadcastInDim_apply _ _ _ (ix2 r q) (ix2 (0 : Fin 1) q) (fun a => by
      match a with
      | ⟨0, _⟩ => rfl
      | ⟨1, _⟩ => rfl),
    broadcastInDim_apply _ _ _ (ix2 (0 : Fin 1) q) (ix1 q) (fun a => by
      match a with
      | ⟨0, _⟩ => rfl)]

/-- The zero scalar spread over the array reads the extended real 0 everywhere. -/
private theorem zeroR_apply (h : Cert.ReferenceIdeal.S_.BroadcastsInDim Cert.ReferenceIdeal.S50000x128 ![]) (r : Fin 50000) (q : Fin 128) :
    broadcastInDim Cert.ReferenceIdeal.S50000x128 ![] h
        (constant (F := Ideal) Cert.ReferenceIdeal.S_ .f32 0x00000000#32) (ix2 r q) = 0 := by
  rw [broadcastInDim_apply _ _ _ (ix2 r q) ix0 (fun a => a.elim0), constant_apply, Ideal.ofBits_zero_f32]

/-! ## The three reads -/

/-- The whole-array stage at an index. -/
theorem layer_apply (x hn : Vec Ideal Cert.ReferenceIdeal.S50000x128 .f32) (ws wn : Vec Ideal Cert.ReferenceIdeal.S128x128 .f32)
    (b : Vec Ideal Cert.ReferenceIdeal.S128 .f32) (r : Fin 50000) (q : Fin 128) :
    Cert.Net.layer (F := Ideal) x hn ws wn b (ix2 r q) = entry 50000 x hn ws wn b r q := by
  unfold Cert.Net.layer
  rw [maximumf_apply, addf_apply, addf_apply, dotR_apply, dotR_apply, biasR_apply, zeroR_apply]
  rfl

/-- The first layer's stored block at an index, from the body's five loaded blocks. -/
theorem pay0_apply (x0 x1 : Vec Ideal Cert.KernelIdeal.S5000x128 .f32) (x2 x3 : Vec Ideal Cert.KernelIdeal.S128x128 .f32)
    (x4 : Vec Ideal Cert.KernelIdeal.S128 .f32) (p : Fin 5000) (q : Fin 128) :
    Cert.KernelIdeal.Gen.k0_pay1 (F := Ideal) x0 x1 x2 x3 x4 (ix2 p q) = entry 5000 x0 x1 x2 x3 x4 p q := by
  unfold Cert.KernelIdeal.Gen.k0_pay1
  simp only [shapeCast_self]
  rw [maximumf_apply, addf_apply, addf_apply, matmulK_apply, matmulK_apply, broadcastTo_1b_ab_apply,
    shapeCast_a_1a_apply, broadcast_apply]
  simp only [truncf_apply]
  exact congrArg (max _) Ideal.ofBits_zero_f32

/-- The second layer's stored block at an index. -/
theorem pay1_apply (x0 x1 : Vec Ideal Cert.KernelIdeal.S5000x128 .f32) (x2 x3 : Vec Ideal Cert.KernelIdeal.S128x128 .f32)
    (x4 : Vec Ideal Cert.KernelIdeal.S128 .f32) (p : Fin 5000) (q : Fin 128) :
    Cert.KernelIdeal.Gen.k1_pay1 (F := Ideal) x0 x1 x2 x3 x4 (ix2 p q) = entry 5000 x0 x1 x2 x3 x4 p q := by
  unfold Cert.KernelIdeal.Gen.k1_pay1
  simp only [shapeCast_self]
  rw [maximumf_apply, addf_apply, addf_apply, matmulK_apply, matmulK_apply, broadcastTo_1b_ab_apply,
    shapeCast_a_1a_apply, broadcast_apply]
  simp only [truncf_apply]
  exact congrArg (max _) Ideal.ofBits_zero_f32

end Cert.LayerIdx

end
-- ==== Proof.Region0.lean ====
/-
  Region 0 of the kernel program is one layer: after its ten grid points the output array holds `Net.layer` of the
  five arrays the region finds at its input windows. Point t stores, from rows 5000·t … 5000·t+4999 of the two node
  arrays and the whole weight and bias arrays, exactly those rows of the layer; the ten blocks tile the 50000 rows.
-/
import proofs.«173096_j90443421319518_1_alg».proof.Proof.LayerIdx
import proofs.«173096_j90443421319518_1_alg».proof.Proof.Gen.KernelIdeal.Frame

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen
open scoped BigOperators

variable (V : (c : Dev nD) → (b : Ref sig .tc) → Buf (Elt Ideal) ((c : Thread nD τ).loc b))

/-- The zero offsets of a rank-2 whole-buffer access, as the constant function. -/
theorem zero_offsets2 : (![0, 0] : Fin 2 → Nat) = fun _ => 0 :=
  funext fun a => by match a with | ⟨0, _⟩ => rfl | ⟨1, _⟩ => rfl

/-- The zero offset of a rank-1 whole-buffer access, as the constant function. -/
theorem zero_offsets1 : (![0] : Fin 1 → Nat) = fun _ => 0 :=
  funext fun a => by match a with | ⟨0, _⟩ => rfl

/-- The block indices over the grid: at point t the two node windows and the output window sit at block (t, 0);
    the weight and bias windows stay at block 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- A grid point is below ten. -/
theorem point_lt (t : Fin cfg0.N) : t.val < 10 := Nat.lt_of_lt_of_eq t.isLt N_0

/-! ## The input blocks at a point, as rows of the arrays -/

/-- Entry (p, k) of the first node window's block at point t is entry (5000·t + p, k) of its array. -/
theorem own_rows (c : Dev nD) (t : Fin cfg0.N) (p : Fin 5000) (k : Fin 128) (h : 5000 * t.val + p.val < 50000) :
    (iblk0 V c 0 t : Vec Ideal S5000x128 .f32) (ix2 p k)
      = (V c main_arg0 : Vec Ideal S50000x128 .f32) (ix2 ⟨5000 * t.val + p.val, h⟩ k) := by
  obtain ⟨e0, e1, -⟩ := block_index t
  unfold iblk0
  rw [View.read_apply]
  show V c main_arg0 _ = V c main_arg0 _
  refine congrArg _ (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * k.val = k.val; omega

/-- Entry (p, k) of the second node window's block at point t is entry (5000·t + p, k) of its array. -/
theorem nbr_rows (c : Dev nD) (t : Fin cfg0.N) (p : Fin 5000) (k : Fin 128) (h : 5000 * t.val + p.val < 50000) :
    (iblk0 V c 1 t : Vec Ideal S5000x128 .f32) (ix2 p k)
      = (V c main_v18 : Vec Ideal S50000x128 .f32) (ix2 ⟨5000 * t.val + p.val, h⟩ k) := by
  obtain ⟨-, -, e0, e1, -⟩ := block_index t
  unfold iblk0
  rw [View.read_apply]
  show V c main_v18 _ = V c main_v18 _
  refine congrArg _ (funext fun a => Fin.ext ?_)
  match a with
  | ⟨0, _⟩ => show win0_1.index t (0 : Fin 2) * 5000 + 1 * p.val = 5000 * t.val + p.val; omega
  | ⟨1, _⟩ => show win0_1.index t (1 : Fin 2) * 128 + 1 * k.val = k.val; omega

/-- The first weight window's block at any point is its whole array. -/
theorem own_weights (c : Dev nD) (t : Fin cfg0.N) (k q : Fin 128) :
    (iblk0 V c 2 t : Vec Ideal S128x128 .f32) (ix2 k q) = (V c main_v19 : Vec Ideal S128x128 .f32) (ix2 k q) := by
  obtain ⟨-, -, -, -, e0, e1, -⟩ := block_index t
  unfold iblk0
  rw [View.read_apply]
  show V c main_v19 _ = V c main_v19 _
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The second weight window's block at any point is its whole array. -/
theorem nbr_weights (c : Dev nD) (t : Fin cfg0.N) (k q : Fin 128) :
    (iblk0 V c 3 t : Vec Ideal S128x128 .f32) (ix2 k q) = (V c main_v20 : Vec Ideal S128x128 .f32) (ix2 k q) := by
  obtain ⟨-, -, -, -, -, -, e0, e1, -⟩ := block_index t
  unfold iblk0
  rw [View.read_apply]
  show V c main_v20 _ = V c main_v20 _
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The bias window's block at any point is its whole array. -/
theorem bias_row (c : Dev nD) (t : Fin cfg0.N) (q : Fin 128) :
    (iblk0 V c 4 t : Vec Ideal S128 .f32) (ix1 q) = (V c main_arg7 : Vec Ideal S128 .f32) (ix1 q) := by
  obtain ⟨-, -, -, -, -, -, -, -, e0, -⟩ := block_index t
  unfold iblk0
  rw [View.read_apply]
  show V c main_arg7 _ = V c main_arg7 _
  refine congrArg _ (funext fun a => Fin.ext ?_)
  match a with
  | ⟨0, _⟩ => show win0_4.index t (0 : Fin 1) * 128 + 1 * q.val = q.val; omega

/-! ## One stored entry is one entry of the layer -/

/-- If five blocks are rows 5000·s … of two node arrays and the whole of two weight arrays and a bias array, entry
    (p, q) of the layer of the blocks is entry (5000·s + p, q) of the layer of the arrays: the two contractions and
    the bias read the same numbers. -/
theorem entry_rows (x0 x1 : Vec Ideal S5000x128 .f32) (x2 x3 : Vec Ideal S128x128 .f32) (x4 : Vec Ideal S128 .f32)
    (a0 a1 : Vec Ideal S50000x128 .f32) (a2 a3 : Vec Ideal S128x128 .f32) (a4 : Vec Ideal S128 .f32)
    (p : Fin 5000) (q : Fin 128) (r : Fin 50000)
    (h0 : ∀ k : Fin 128, x0 (ix2 p k) = a0 (ix2 r k)) (h1 : ∀ k : Fin 128, x1 (ix2 p k) = a1 (ix2 r k))
    (h2 : ∀ k q : Fin 128, x2 (ix2 k q) = a2 (ix2 k q)) (h3 : ∀ k q : Fin 128, x3 (ix2 k q) = a3 (ix2 k q))
    (h4 : ∀ q : Fin 128, x4 (ix1 q) = a4 (ix1 q)) :
    Cert.LayerIdx.entry 5000 x0 x1 x2 x3 x4 p q = Cert.LayerIdx.entry 50000 a0 a1 a2 a3 a4 r q := by
  unfold Cert.LayerIdx.entry
  simp only [h0, h1, h2, h3, h4]

/-- Entry (p, q) of what point t stores is entry (5000·t + p, q) of the layer of the arrays. -/
theorem stored_entry (c : Dev nD) (t : Fin cfg0.N) (p : Fin 5000) (q : Fin 128) (h : 5000 * t.val + p.val < 50000) :
    k0_pay1 (F := Ideal) (iblk0 V c 0 t) (iblk0 V c 1 t) (iblk0 V c 2 t) (iblk0 V c 3 t) (iblk0 V c 4 t) (ix2 p q)
      = Cert.Net.layer (F := Ideal) (V c main_arg0) (V c main_v18) (V c main_v19) (V c main_v20) (V c main_arg7) (ix2 ⟨5000 * t.val + p.val, h⟩ q) := by
  refine (Cert.LayerIdx.pay0_apply (iblk0 V c 0 t) (iblk0 V c 1 t) (iblk0 V c 2 t) (iblk0 V c 3 t) (iblk0 V c 4 t) p q).trans ?_
  refine Eq.trans ?_ (Cert.LayerIdx.layer_apply (V c main_arg0) (V c main_v18) (V c main_v19) (V c main_v20) (V c main_arg7) ⟨5000 * t.val + p.val, h⟩ q).symm
  exact entry_rows (iblk0 V c 0 t) (iblk0 V c 1 t) (iblk0 V c 2 t) (iblk0 V c 3 t) (iblk0 V c 4 t) (V c main_arg0) (V c main_v18) (V c main_v19) (V c main_v20) (V c main_arg7) p q ⟨5000 * t.val + p.val, h⟩
    (fun k => own_rows V c t p k h) (fun k => nbr_rows V c t p k h) (own_weights V c t) (nbr_weights V c t) (bias_row V c t)

/-! ## What a point writes back -/

/-- Point t writes back block t of the layer of the arrays the region was entered with. -/
theorem flushed_eq (c : Dev nD) (t : Fin cfg0.N) :
    (dat0 (F := Ideal) V c).flushed 5 t
      = ((cfg0.win 5).blk t).view.read (Elt Ideal)
          (Cert.Net.layer (V c main_arg0) (V c main_v18) (V c main_v19) (V c main_v20) (V c main_arg7)) := by
  show (cfg0.win 5).cut (grid0.coords t) ((dat0 V c).after 5 t) = _
  rw [after0_5]
  unfold out0_5
  rw [View.canon_unit_zero zero_offsets2]
  simp only [View.ld_unit_zero (S := S5000x128) zero_offsets2, View.ld_unit_zero (S := S128x128) zero_offsets2,
    View.ld_unit_zero (S := S128) zero_offsets1]
  obtain ⟨-, -, -, -, -, -, -, -, -, e0, e1⟩ := block_index t
  have ht := point_lt t
  funext j
  have hj0 : (j 0).val < 5000 := (j 0).isLt
  have hj1 : (j 1).val < 128 := (j 1).isLt
  have hr : 5000 * t.val + (j 0).val < 50000 := by omega
  have hin : (win0 5).xinj (grid0.coords t) j = ix2 ⟨(j 0).val, hj0⟩ ⟨(j 1).val, hj1⟩ :=
    funext fun a => by match a with | ⟨0, _⟩ => rfl | ⟨1, _⟩ => rfl
  have hat : ((cfg0.win 5).blk t).view.emb j = ix2 ⟨5000 * t.val + (j 0).val, hr⟩ ⟨(j 1).val, hj1⟩ := by
    funext a; apply Fin.ext
    match a with
    | ⟨0, _⟩ => show win0_5.index t (0 : Fin 2) * 5000 + 1 * (j 0).val = 5000 * t.val + (j 0).val; omega
    | ⟨1, _⟩ => show win0_5.index t (1 : Fin 2) * 128 + 1 * (j 1).val = (j 1).val; omega
  refine (congrArg (k0_pay1 (F := Ideal) (iblk0 V c 0 t) (iblk0 V c 1 t) (iblk0 V c 2 t) (iblk0 V c 3 t) (iblk0 V c 4 t)) hin).trans ?_
  refine Eq.trans ?_ (congrArg (Cert.Net.layer (F := Ideal) (V c main_arg0) (V c main_v18) (V c main_v19) (V c main_v20) (V c main_arg7)) hat).symm
  exact stored_entry V c t ⟨(j 0).val, hj0⟩ ⟨(j 1).val, hj1⟩ hr

/-! ## The ten blocks tile the array -/

/-- An index of the output array is in point t's block iff each coordinate is in the block's range on its axis. -/
theorem mem_block (t : Fin cfg0.N) (i : S50000x128.Idx) :
    i ∈ ((cfg0.win 5).blk t).view.set
      ↔ ∀ a : Fin 2, win0_5.index t a * S5000x128.size a ≤ (i a).val
          ∧ (i a).val < win0_5.index t a * S5000x128.size a + S5000x128.size a := by
  show i ∈ ((View.whole main_v21).slice (win0_5.rect t)).set ↔ _
  rw [View.set_slice_whole, Rect.mem_set_unit]
  exact Iff.rfl

/-- Row r of the output array lies in the block of point r / 5000, and every point writes back. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, Nat.lt_of_lt_of_eq (by omega) N_0.symm⟩, rfl⟩
  obtain ⟨-, -, -, -, -, -, -, -, -, e0, e1⟩ := block_index t
  refine ⟨t, flush0_5 t, ?_⟩
  rw [mem_block]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- The output array after region 0's run, as the layer of the arrays it was entered with. -/
theorem value (c : Dev nD) :
    (dat0 (F := Ideal) V c).arrAt 5 cfg0.N
      = Cert.Net.layer (V c main_arg0) (V c main_v18) (V c main_v19) (V c main_v20) (V c main_arg7) :=
  (dat0 (F := Ideal) V c).arrAt_eq_of_cover 5 (Cert.Net.layer (V c main_arg0) (V c main_v18) (V c main_v19) (V c main_v20) (V c main_arg7))
    (fun t _ => flushed_eq V c t) covered

end Cert.KernelIdeal.Region0

end
-- ==== Proof.Region1.lean ====
/-
  Region 1 of the kernel program is one layer: after its ten grid points the output array holds `Net.layer` of the
  five arrays the region finds at its input windows. Point t stores, from rows 5000·t … 5000·t+4999 of the two node
  arrays and the whole weight and bias arrays, exactly those rows of the layer; the ten blocks tile the 50000 rows.
-/
import proofs.«173096_j90443421319518_1_alg».proof.Proof.LayerIdx
import proofs.«173096_j90443421319518_1_alg».proof.Proof.Gen.KernelIdeal.Frame

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen
open scoped BigOperators

variable (V : (c : Dev nD) → (b : Ref sig .tc) → Buf (Elt Ideal) ((c : Thread nD τ).loc b))

/-- The zero offsets of a rank-2 whole-buffer access, as the constant function. -/
theorem zero_offsets2 : (![0, 0] : Fin 2 → Nat) = fun _ => 0 :=
  funext fun a => by match a with | ⟨0, _⟩ => rfl | ⟨1, _⟩ => rfl

/-- The zero offset of a rank-1 whole-buffer access, as the constant function. -/
theorem zero_offsets1 : (![0] : Fin 1 → Nat) = fun _ => 0 :=
  funext fun a => by match a with | ⟨0, _⟩ => rfl

/-- The block indices over the grid: at point t the two node windows and the output window sit at block (t, 0);
    the weight and bias windows stay at block 0. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- A grid point is below ten. -/
theorem point_lt (t : Fin cfg1.N) : t.val < 10 := Nat.lt_of_lt_of_eq t.isLt N_1

/-! ## The input blocks at a point, as rows of the arrays -/

/-- Entry (p, k) of the first node window's block at point t is entry (5000·t + p, k) of its array. -/
theorem own_rows (c : Dev nD) (t : Fin cfg1.N) (p : Fin 5000) (k : Fin 128) (h : 5000 * t.val + p.val < 50000) :
    (iblk1 V c 0 t : Vec Ideal S5000x128 .f32) (ix2 p k)
      = (V c main_v21 : Vec Ideal S50000x128 .f32) (ix2 ⟨5000 * t.val + p.val, h⟩ k) := by
  obtain ⟨e0, e1, -⟩ := block_index t
  unfold iblk1
  rw [View.read_apply]
  show V c main_v21 _ = V c main_v21 _
  refine congrArg _ (funext fun a => Fin.ext ?_)
  match a with
  | ⟨0, _⟩ => show win1_0.index t (0 : Fin 2) * 5000 + 1 * p.val = 5000 * t.val + p.val; omega
  | ⟨1, _⟩ => show win1_0.index t (1 : Fin 2) * 128 + 1 * k.val = k.val; omega

/-- Entry (p, k) of the second node window's block at point t is entry (5000·t + p, k) of its array. -/
theorem nbr_rows (c : Dev nD) (t : Fin cfg1.N) (p : Fin 5000) (k : Fin 128) (h : 5000 * t.val + p.val < 50000) :
    (iblk1 V c 1 t : Vec Ideal S5000x128 .f32) (ix2 p k)
      = (V c main_v40 : Vec Ideal S50000x128 .f32) (ix2 ⟨5000 * t.val + p.val, h⟩ k) := by
  obtain ⟨-, -, e0, e1, -⟩ := block_index t
  unfold iblk1
  rw [View.read_apply]
  show V c main_v40 _ = V c main_v40 _
  refine congrArg _ (funext fun a => Fin.ext ?_)
  match a with
  | ⟨0, _⟩ => show win1_1.index t (0 : Fin 2) * 5000 + 1 * p.val = 5000 * t.val + p.val; omega
  | ⟨1, _⟩ => show win1_1.index t (1 : Fin 2) * 128 + 1 * k.val = k.val; omega

/-- The first weight window's block at any point is its whole array. -/
theorem own_weights (c : Dev nD) (t : Fin cfg1.N) (k q : Fin 128) :
    (iblk1 V c 2 t : Vec Ideal S128x128 .f32) (ix2 k q) = (V c main_v41 : Vec Ideal S128x128 .f32) (ix2 k q) := by
  obtain ⟨-, -, -, -, e0, e1, -⟩ := block_index t
  unfold iblk1
  rw [View.read_apply]
  show V c main_v41 _ = V c main_v41 _
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- The second weight window's block at any point is its whole array. -/
theorem nbr_weights (c : Dev nD) (t : Fin cfg1.N) (k q : Fin 128) :
    (iblk1 V c 3 t : Vec Ideal S128x128 .f32) (ix2 k q) = (V c main_v42 : Vec Ideal S128x128 .f32) (ix2 k q) := by
  obtain ⟨-, -, -, -, -, -, e0, e1, -⟩ := block_index t
  unfold iblk1
  rw [View.read_apply]
  show V c main_v42 _ = V c main_v42 _
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The bias window's block at any point is its whole array. -/
theorem bias_row (c : Dev nD) (t : Fin cfg1.N) (q : Fin 128) :
    (iblk1 V c 4 t : Vec Ideal S128 .f32) (ix1 q) = (V c main_arg10 : Vec Ideal S128 .f32) (ix1 q) := by
  obtain ⟨-, -, -, -, -, -, -, -, e0, -⟩ := block_index t
  unfold iblk1
  rw [View.read_apply]
  show V c main_arg10 _ = V c main_arg10 _
  refine congrArg _ (funext fun a => Fin.ext ?_)
  match a with
  | ⟨0, _⟩ => show win1_4.index t (0 : Fin 1) * 128 + 1 * q.val = q.val; omega

/-! ## One stored entry is one entry of the layer -/

/-- If five blocks are rows 5000·s … of two node arrays and the whole of two weight arrays and a bias array, entry
    (p, q) of the layer of the blocks is entry (5000·s + p, q) of the layer of the arrays: the two contractions and
    the bias read the same numbers. -/
theorem entry_rows (x0 x1 : Vec Ideal S5000x128 .f32) (x2 x3 : Vec Ideal S128x128 .f32) (x4 : Vec Ideal S128 .f32)
    (a0 a1 : Vec Ideal S50000x128 .f32) (a2 a3 : Vec Ideal S128x128 .f32) (a4 : Vec Ideal S128 .f32)
    (p : Fin 5000) (q : Fin 128) (r : Fin 50000)
    (h0 : ∀ k : Fin 128, x0 (ix2 p k) = a0 (ix2 r k)) (h1 : ∀ k : Fin 128, x1 (ix2 p k) = a1 (ix2 r k))
    (h2 : ∀ k q : Fin 128, x2 (ix2 k q) = a2 (ix2 k q)) (h3 : ∀ k q : Fin 128, x3 (ix2 k q) = a3 (ix2 k q))
    (h4 : ∀ q : Fin 128, x4 (ix1 q) = a4 (ix1 q)) :
    Cert.LayerIdx.entry 5000 x0 x1 x2 x3 x4 p q = Cert.LayerIdx.entry 50000 a0 a1 a2 a3 a4 r q := by
  unfold Cert.LayerIdx.entry
  simp only [h0, h1, h2, h3, h4]

/-- Entry (p, q) of what point t stores is entry (5000·t + p, q) of the layer of the arrays. -/
theorem stored_entry (c : Dev nD) (t : Fin cfg1.N) (p : Fin 5000) (q : Fin 128) (h : 5000 * t.val + p.val < 50000) :
    k1_pay1 (F := Ideal) (iblk1 V c 0 t) (iblk1 V c 1 t) (iblk1 V c 2 t) (iblk1 V c 3 t) (iblk1 V c 4 t) (ix2 p q)
      = Cert.Net.layer (F := Ideal) (V c main_v21) (V c main_v40) (V c main_v41) (V c main_v42) (V c main_arg10) (ix2 ⟨5000 * t.val + p.val, h⟩ q) := by
  refine (Cert.LayerIdx.pay1_apply (iblk1 V c 0 t) (iblk1 V c 1 t) (iblk1 V c 2 t) (iblk1 V c 3 t) (iblk1 V c 4 t) p q).trans ?_
  refine Eq.trans ?_ (Cert.LayerIdx.layer_apply (V c main_v21) (V c main_v40) (V c main_v41) (V c main_v42) (V c main_arg10) ⟨5000 * t.val + p.val, h⟩ q).symm
  exact entry_rows (iblk1 V c 0 t) (iblk1 V c 1 t) (iblk1 V c 2 t) (iblk1 V c 3 t) (iblk1 V c 4 t) (V c main_v21) (V c main_v40) (V c main_v41) (V c main_v42) (V c main_arg10) p q ⟨5000 * t.val + p.val, h⟩
    (fun k => own_rows V c t p k h) (fun k => nbr_rows V c t p k h) (own_weights V c t) (nbr_weights V c t) (bias_row V c t)

/-! ## What a point writes back -/

/-- Point t writes back block t of the layer of the arrays the region was entered with. -/
theorem flushed_eq (c : Dev nD) (t : Fin cfg1.N) :
    (dat1 (F := Ideal) V c).flushed 5 t
      = ((cfg1.win 5).blk t).view.read (Elt Ideal)
          (Cert.Net.layer (V c main_v21) (V c main_v40) (V c main_v41) (V c main_v42) (V c main_arg10)) := by
  show (cfg1.win 5).cut (grid1.coords t) ((dat1 V c).after 5 t) = _
  rw [after1_5]
  unfold out1_5
  rw [View.canon_unit_zero zero_offsets2]
  simp only [View.ld_unit_zero (S := S5000x128) zero_offsets2, View.ld_unit_zero (S := S128x128) zero_offsets2,
    View.ld_unit_zero (S := S128) zero_offsets1]
  obtain ⟨-, -, -, -, -, -, -, -, -, e0, e1⟩ := block_index t
  have ht := point_lt t
  funext j
  have hj0 : (j 0).val < 5000 := (j 0).isLt
  have hj1 : (j 1).val < 128 := (j 1).isLt
  have hr : 5000 * t.val + (j 0).val < 50000 := by omega
  have hin : (win1 5).xinj (grid1.coords t) j = ix2 ⟨(j 0).val, hj0⟩ ⟨(j 1).val, hj1⟩ :=
    funext fun a => by match a with | ⟨0, _⟩ => rfl | ⟨1, _⟩ => rfl
  have hat : ((cfg1.win 5).blk t).view.emb j = ix2 ⟨5000 * t.val + (j 0).val, hr⟩ ⟨(j 1).val, hj1⟩ := by
    funext a; apply Fin.ext
    match a with
    | ⟨0, _⟩ => show win1_5.index t (0 : Fin 2) * 5000 + 1 * (j 0).val = 5000 * t.val + (j 0).val; omega
    | ⟨1, _⟩ => show win1_5.index t (1 : Fin 2) * 128 + 1 * (j 1).val = (j 1).val; omega
  refine (congrArg (k1_pay1 (F := Ideal) (iblk1 V c 0 t) (iblk1 V c 1 t) (iblk1 V c 2 t) (iblk1 V c 3 t) (iblk1 V c 4 t)) hin).trans ?_
  refine Eq.trans ?_ (congrArg (Cert.Net.layer (F := Ideal) (V c main_v21) (V c main_v40) (V c main_v41) (V c main_v42) (V c main_arg10)) hat).symm
  exact stored_entry V c t ⟨(j 0).val, hj0⟩ ⟨(j 1).val, hj1⟩ hr

/-! ## The ten blocks tile the array -/

/-- An index of the output array is in point t's block iff each coordinate is in the block's range on its axis. -/
theorem mem_block (t : Fin cfg1.N) (i : S50000x128.Idx) :
    i ∈ ((cfg1.win 5).blk t).view.set
      ↔ ∀ a : Fin 2, win1_5.index t a * S5000x128.size a ≤ (i a).val
          ∧ (i a).val < win1_5.index t a * S5000x128.size a + S5000x128.size a := by
  show i ∈ ((View.whole main_v43).slice (win1_5.rect t)).set ↔ _
  rw [View.set_slice_whole, Rect.mem_set_unit]
  exact Iff.rfl

/-- Row r of the output array lies in the block of point r / 5000, and every point writes back. -/
theorem covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, Nat.lt_of_lt_of_eq (by omega) N_1.symm⟩, rfl⟩
  obtain ⟨-, -, -, -, -, -, -, -, -, e0, e1⟩ := block_index t
  refine ⟨t, flush1_5 t, ?_⟩
  rw [mem_block]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- The output array after region 1's run, as the layer of the arrays it was entered with. -/
theorem value (c : Dev nD) :
    (dat1 (F := Ideal) V c).arrAt 5 cfg1.N
      = Cert.Net.layer (V c main_v21) (V c main_v40) (V c main_v41) (V c main_v42) (V c main_arg10) :=
  (dat1 (F := Ideal) V c).arrAt_eq_of_cover 5 (Cert.Net.layer (V c main_v21) (V c main_v40) (V c main_v41) (V c main_v42) (V c main_arg10))
    (fun t _ => flushed_eq V c t) covered

end Cert.KernelIdeal.Region1

end
-- ==== Proof.Region2.lean ====
/-
  Region 2 of the kernel program is the readout: its one grid point loads the whole picked state rows, action row,
  weight column and bias, and stores the 1×1 result, which is `Net.head` of those four arrays: the lane-wise maximum
  over the 256 rows from -∞ is the host's max-reduction, the unit-axis cast of a row is its broadcast, the matrix unit
  from a zero accumulator is the host's contraction, and a change of float format is the identity on extended reals.
-/
import proofs.«173096_j90443421319518_1_alg».proof.Proof.Net
import proofs.«173096_j90443421319518_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen
open scoped BigOperators

variable (V : (c : Dev nD) → (b : Ref sig .tc) → Buf (Elt Ideal) ((c : Thread nD τ).loc b))

/-! ## The arithmetic of the readout, on the loaded blocks -/

/-- A vector with a leading unit axis put in front is its broadcast along the second axis. -/
theorem rowCast_eq {a : ℕ} {α : Type} (v : (⟨1, ![a]⟩ : Shape).Idx → α) (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ v h = broadcastInDim ⟨2, ![1, a]⟩ ![1] h' v := by
  funext j
  obtain ⟨u, i, rfl⟩ : ∃ (u : Fin 1) (i : Fin a), j = ix2 u i := ⟨j 0, j 1, eq_ix2 j⟩
  rw [shapeCast_a_1a_apply]
  refine (broadcastInDim_apply _ h' v (ix2 u i) (ix1 i) (fun c => ?_)).symm
  match c with
  | ⟨0, _⟩ =>
    show i.val = if a = 1 then 0 else i.val
    split_ifs with ha
    · have := i.isLt; omega
    · rfl

/-- The lane-wise maximum over the rows from -∞ is the host's max-reduction over axis 0 from -∞. -/
theorem colMax_eq (sv : FVec Ideal S256x128 .f32) :
    multiReduction (F := Ideal) .maximumf [0] S128 sv 0xFF800000#32 reduces_S256x128_S128 (.inl rfl) rfl
      = Host.reduce FloatOps.maximumf sv (constant (F := Ideal) Cert.ReferenceIdeal.S_ .f32 0xFF800000#32) Cert.ReferenceIdeal.Facts₀.reducesTo_S256x128_S128_d0 Cert.ReferenceIdeal.Facts₀.h_S_ := by
  funext j
  refine (Ideal.multiReduction_maximumf_single sv 0xFF800000#32 reduces_S256x128_S128 (.inl rfl) rfl j).trans ?_
  refine Eq.trans ?_ (Host.reduce_eq_fold_single FloatOps.maximumf sv _ Cert.ReferenceIdeal.Facts₀.reducesTo_S256x128_S128_d0 reduces_S256x128_S128 Cert.ReferenceIdeal.Facts₀.h_S_ j).symm
  rfl

/-- A change of float format on both operands does not change the matrix unit's result from a zero accumulator,
    which is the host's contraction of the same operands. -/
theorem mm_eq (l : FVec Ideal S1x256 .f32) (r : FVec Ideal S256x1 .f32) :
    matmul (F := Ideal) dot_S1x256_S256x1_S1x1_1_0_0_1_n_n none (truncf .bf16 l bitsLt_bf16_f32) (truncf .bf16 r bitsLt_bf16_f32) (constant (F := Ideal) S1x1 .f32 0x00000000#32)
      = Host.dotGeneral (F := Ideal) Cert.ReferenceIdeal.dot_S1x256_S256x1_S1x1_1_0_0_1_n_n none l r := by
  funext j
  simp only [matmul, Host.dotGeneral]
  rw [Ideal.matmul_constant_zero_apply, Ideal.dotGeneral_apply]
  rfl

/-- The readout payload of the four loaded blocks is the readout of those blocks as the host computes it. -/
theorem pay_eq (sv : Vec Ideal S256x128 .f32) (av : Vec Ideal S1x128 .f32) (w : Vec Ideal S256x1 .f32) (b : Vec Ideal S1 .f32) :
    k2_pay1 (F := Ideal) sv av w b = Cert.Net.head (F := Ideal) sv av w b := by
  unfold k2_pay1 Cert.Net.head
  dsimp only
  rw [shapeCast_self, shapeCast_self, shapeCast_self, colMax_eq,
    rowCast_eq _ _ Cert.ReferenceIdeal.Facts₀.bcast_S128_S1x128_1,
    rowCast_eq _ _ Cert.ReferenceIdeal.Facts₀.bcast_S1_S1x1_1, mm_eq]

/-! ## From the one point's block to the result array -/

/-- The offsets of a whole-shape rectangle are zero on every axis (rank 2, rank 1). -/
theorem zeroOff2 : (![0, 0] : Fin 2 → Nat) = fun _ => 0 := funext fun a => by fin_cases a <;> rfl
theorem zeroOff1 : (![0] : Fin 1 → Nat) = fun _ => 0 := funext fun a => by fin_cases a <;> rfl

/-- What the one store of the body leaves in the output block, as the readout of the four loaded blocks. -/
theorem out_eq (x0 : Vec Ideal S256x128 .f32) (x1 : Vec Ideal S1x128 .f32) (x2 : Vec Ideal S256x1 .f32) (x3 : Vec Ideal S1 .f32) :
    out2_4 (F := Ideal) x0 x1 x2 x3 = Cert.Net.head (F := Ideal) x0 x1 x2 x3 := by
  unfold out2_4
  rw [View.canon_unit_zero zeroOff2]
  simp only [View.ld_unit_zero (S := S256x128) zeroOff2, View.ld_unit_zero (S := S1x128) zeroOff2,
    View.ld_unit_zero (S := S256x1) zeroOff2, View.ld_unit_zero (S := S1) zeroOff1]
  exact pay_eq x0 x1 x2 x3

/-- The state rows' block at the one point is the whole array. -/
theorem blk0_eq (c : Dev nD) (t : Fin cfg2.N) : (iblk2 V c 0 t : Vec Ideal S256x128 .f32) = V c main_v50 := by
  funext y
  show V c main_v50 (((cfg2.win 0).blk t).view.emb y) = V c main_v50 y
  refine congrArg (V c main_v50) (funext fun a => Fin.ext ?_)
  exact win2_0.rect_emb_val_of_index_zero t a (by match a with | ⟨0, _⟩ => rfl | ⟨1, _⟩ => rfl) y

/-- The action row's block at the one point is the whole array. -/
theorem blk1_eq (c : Dev nD) (t : Fin cfg2.N) : (iblk2 V c 1 t : Vec Ideal S1x128 .f32) = V c main_v57 := by
  funext y
  show V c main_v57 (((cfg2.win 1).blk t).view.emb y) = V c main_v57 y
  refine congrArg (V c main_v57) (funext fun a => Fin.ext ?_)
  exact win2_1.rect_emb_val_of_index_zero t a (by match a with | ⟨0, _⟩ => rfl | ⟨1, _⟩ => rfl) y

/-- The weight column's block at the one point is the whole array. -/
theorem blk2_eq (c : Dev nD) (t : Fin cfg2.N) : (iblk2 V c 2 t : Vec Ideal S256x1 .f32) = V c main_v58 := by
  funext y
  show V c main_v58 (((cfg2.win 2).blk t).view.emb y) = V c main_v58 y
  refine congrArg (V c main_v58) (funext fun a => Fin.ext ?_)
  exact win2_2.rect_emb_val_of_index_zero t a (by match a with | ⟨0, _⟩ => rfl | ⟨1, _⟩ => rfl) y

/-- The bias's block at the one point is the whole array. -/
theorem blk3_eq (c : Dev nD) (t : Fin cfg2.N) : (iblk2 V c 3 t : Vec Ideal S1 .f32) = V c main_arg12 := by
  funext y
  show V c main_arg12 (((cfg2.win 3).blk t).view.emb y) = V c main_arg12 y
  refine congrArg (V c main_arg12) (funext fun a => Fin.ext ?_)
  exact win2_3.rect_emb_val_of_index_zero t a (by match a with | ⟨0, _⟩ => rfl) y

/-- What the one point writes back is the (whole) block of the readout of the arrays the region was entered with. -/
theorem flushed_eq (c : Dev nD) (t : Fin cfg2.N) :
    (dat2 (F := Ideal) V c).flushed 4 t
      = ((cfg2.win 4).blk t).view.read (Elt Ideal) (Cert.Net.head (F := Ideal) (V c main_v50) (V c main_v57) (V c main_v58) (V c main_arg12)) := by
  show (cfg2.win 4).cut (grid2.coords t) ((dat2 V c).after 4 t) = _
  rw [after2_4, out_eq (iblk2 V c 0 t) (iblk2 V c 1 t) (iblk2 V c 2 t) (iblk2 V c 3 t),
    blk0_eq V c t, blk1_eq V c t, blk2_eq V c t, blk3_eq V c t]
  funext y
  show Cert.Net.head (F := Ideal) (V c main_v50) (V c main_v57) (V c main_v58) (V c main_arg12) y
    = Cert.Net.head (F := Ideal) (V c main_v50) (V c main_v57) (V c main_v58) (V c main_arg12) (((cfg2.win 4).blk t).view.emb y)
  refine congrArg _ (funext fun a => Fin.ext ?_)
  exact (win2_4.rect_emb_val_of_index_zero t a (by match a with | ⟨0, _⟩ => rfl | ⟨1, _⟩ => rfl) y).symm

/-- An index of the result array is in the point's block iff each coordinate is in the block's range on its axis. -/
theorem mem_blk (t : Fin cfg2.N) (i : S1x1.Idx) :
    i ∈ ((cfg2.win 4).blk t).view.set ↔ ∀ a : Fin 2, win2_4.index t a * S1x1.size a ≤ (i a).val ∧ (i a).val < win2_4.index t a * S1x1.size a + S1x1.size a := by
  show i ∈ ((View.whole main_v59).slice (win2_4.rect t)).set ↔ _
  rw [View.set_slice_whole, Rect.mem_set_unit]
  exact Iff.rfl

/-- The one point's block is the whole 1×1 result array. -/
theorem cover (i : S1x1.Idx) : ∃ t : Fin cfg2.N, (cfg2.win 4).flush t = true ∧ i ∈ ((cfg2.win 4).blk t).view.set := by
  refine ⟨t2_0, flush2_4 t2_0, ?_⟩
  rw [mem_blk]
  intro a
  match a with
  | ⟨0, _⟩ =>
    show win2_4.index t2_0 (0 : Fin 2) * 1 ≤ (i 0).val ∧ (i 0).val < win2_4.index t2_0 (0 : Fin 2) * 1 + 1
    have h0 : win2_4.index t2_0 (0 : Fin 2) = 0 := rfl
    have hi : (i 0).val < 1 := (i 0).isLt
    omega
  | ⟨1, _⟩ =>
    show win2_4.index t2_0 (1 : Fin 2) * 1 ≤ (i 1).val ∧ (i 1).val < win2_4.index t2_0 (1 : Fin 2) * 1 + 1
    have h0 : win2_4.index t2_0 (1 : Fin 2) = 0 := rfl
    have hi : (i 1).val < 1 := (i 1).isLt
    omega

/-- The result array after region 2's run, as the readout of the arrays it was entered with. -/
theorem value (c : Dev nD) :
    (dat2 (F := Ideal) V c).arrAt 4 cfg2.N
      = Cert.Net.head (V c main_v50) (V c main_v57) (V c main_v58) (V c main_arg12) :=
  (dat2 (F := Ideal) V c).arrAt_eq_of_cover 4 (Cert.Net.head (F := Ideal) (V c main_v50) (V c main_v57) (V c main_v58) (V c main_arg12))
    (fun t _ => flushed_eq V c t) cover

end Cert.KernelIdeal.Region2

end
-- ==== Proof.HostWalk.lean ====
/-
  The kernel program's result, composed. @main alternates stretches of host operations with the three regions;
  the buffer contents at each boundary are a fold from the launch memory. Read through that fold: the first
  stretch leaves the mean of the in-neighbour rows of the input features and the two transposed weight matrices,
  region 0 turns them into the first layer, the second stretch repeats the aggregation over that layer, region 1
  gives the second layer, the third stretch picks the state rows and the action row and transposes the readout
  weights, and region 2 is the readout. No stretch and no region writes an argument array, so wherever an argument
  is read it still holds its launch contents. The composition is `Net.net` of the thirteen arguments.
-/
import proofs.«173096_j90443421319518_1_alg».proof.Proof.Region0
import proofs.«173096_j90443421319518_1_alg».proof.Proof.Region1
import proofs.«173096_j90443421319518_1_alg».proof.Proof.Region2
import Idealize.ShloMosaic.Lib.StableHlo.Run

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- A buffer's contents after the first stretch, read operation by operation from the launch memory. -/
local macro "read_stretch0" : tactic => `(tactic| (dsimp only [W1, hostOps0]; after_results; first | done | rfl))
/-- The same after the second stretch, from region 0's exit contents. -/
local macro "read_stretch1" : tactic => `(tactic| (dsimp only [W3, hostOps1]; after_results; first | done | rfl))
/-- The same after the third stretch, from region 1's exit contents. -/
local macro "read_stretch2" : tactic => `(tactic| (dsimp only [W5, hostOps2]; after_results; first | done | rfl))

/-! ## The first stretch: from the launch memory to region 0's entry -/

theorem W1_arg0 (c : Dev nD) : W1 m ρ c (Proc.devRef .tc main_arg0) = m ((c : Thread nD τ).loc main_arg0) := by read_stretch0
theorem W1_arg1 (c : Dev nD) : W1 m ρ c (Proc.devRef .tc main_arg1) = m ((c : Thread nD τ).loc main_arg1) := by read_stretch0
theorem W1_arg2 (c : Dev nD) : W1 m ρ c (Proc.devRef .tc main_arg2) = m ((c : Thread nD τ).loc main_arg2) := by read_stretch0
theorem W1_arg3 (c : Dev nD) : W1 m ρ c (Proc.devRef .tc main_arg3) = m ((c : Thread nD τ).loc main_arg3) := by read_stretch0
theorem W1_arg4 (c : Dev nD) : W1 m ρ c (Proc.devRef .tc main_arg4) = m ((c : Thread nD τ).loc main_arg4) := by read_stretch0
theorem W1_arg7 (c : Dev nD) : W1 m ρ c (Proc.devRef .tc main_arg7) = m ((c : Thread nD τ).loc main_arg7) := by read_stretch0
theorem W1_arg8 (c : Dev nD) : W1 m ρ c (Proc.devRef .tc main_arg8) = m ((c : Thread nD τ).loc main_arg8) := by read_stretch0
theorem W1_arg9 (c : Dev nD) : W1 m ρ c (Proc.devRef .tc main_arg9) = m ((c : Thread nD τ).loc main_arg9) := by read_stretch0
theorem W1_arg10 (c : Dev nD) : W1 m ρ c (Proc.devRef .tc main_arg10) = m ((c : Thread nD τ).loc main_arg10) := by read_stretch0
theorem W1_arg11 (c : Dev nD) : W1 m ρ c (Proc.devRef .tc main_arg11) = m ((c : Thread nD τ).loc main_arg11) := by read_stretch0
theorem W1_arg12 (c : Dev nD) : W1 m ρ c (Proc.devRef .tc main_arg12) = m ((c : Thread nD τ).loc main_arg12) := by read_stretch0

set_option maxHeartbeats 2000000 in
/-- The neighbour means of the input features. -/
theorem W1_v18 (c : Dev nD) : W1 m ρ c (Proc.devRef .tc main_v18)
    = Cert.Net.meanAgg (m ((c : Thread nD τ).loc main_arg0)) (m ((c : Thread nD τ).loc main_arg1)) (m ((c : Thread nD τ).loc main_arg2)) := by
  unfold Cert.Net.meanAgg; read_stretch0
theorem W1_v19 (c : Dev nD) : W1 m ρ c (Proc.devRef .tc main_v19) = Cert.Net.tr (m ((c : Thread nD τ).loc main_arg5)) := by
  unfold Cert.Net.tr; read_stretch0
theorem W1_v20 (c : Dev nD) : W1 m ρ c (Proc.devRef .tc main_v20) = Cert.Net.tr (m ((c : Thread nD τ).loc main_arg6)) := by
  unfold Cert.Net.tr; read_stretch0

/-! ## Region 0: the first layer -/

/-- The first layer of the network, as a function of the launch memory. -/
def h1 (c : Dev nD) : (⟨Cert.ReferenceIdeal.S50000x128, .f32⟩ : BufTy).Contents (Elt Ideal) :=
  Cert.Net.layer (m ((c : Thread nD τ).loc main_arg0)) (Cert.Net.meanAgg (m ((c : Thread nD τ).loc main_arg0)) (m ((c : Thread nD τ).loc main_arg1)) (m ((c : Thread nD τ).loc main_arg2))) (Cert.Net.tr (m ((c : Thread nD τ).loc main_arg5))) (Cert.Net.tr (m ((c : Thread nD τ).loc main_arg6))) (m ((c : Thread nD τ).loc main_arg7))

theorem W2_v21 (c : Dev nD) : W2 m ρ c (Proc.devRef .tc main_v21) = h1 m c := by
  refine (W2_arr m ρ c 5).trans ((Cert.KernelIdeal.Region0.value (V1 m ρ) c).trans ?_)
  show Cert.Net.layer (W1 m ρ c (Proc.devRef .tc main_arg0)) (W1 m ρ c (Proc.devRef .tc main_v18)) (W1 m ρ c (Proc.devRef .tc main_v19))
    (W1 m ρ c (Proc.devRef .tc main_v20)) (W1 m ρ c (Proc.devRef .tc main_arg7)) = _
  rw [W1_arg0, W1_v18, W1_v19, W1_v20, W1_arg7]; rfl

theorem W2_arg1 (c : Dev nD) : W2 m ρ c (Proc.devRef .tc main_arg1) = m ((c : Thread nD τ).loc main_arg1) := (W2_of_ne m ρ c main_arg1 (by decide)).trans (W1_arg1 m ρ c)
theorem W2_arg2 (c : Dev nD) : W2 m ρ c (Proc.devRef .tc main_arg2) = m ((c : Thread nD τ).loc main_arg2) := (W2_of_ne m ρ c main_arg2 (by decide)).trans (W1_arg2 m ρ c)
theorem W2_arg3 (c : Dev nD) : W2 m ρ c (Proc.devRef .tc main_arg3) = m ((c : Thread nD τ).loc main_arg3) := (W2_of_ne m ρ c main_arg3 (by decide)).trans (W1_arg3 m ρ c)
theorem W2_arg4 (c : Dev nD) : W2 m ρ c (Proc.devRef .tc main_arg4) = m ((c : Thread nD τ).loc main_arg4) := (W2_of_ne m ρ c main_arg4 (by decide)).trans (W1_arg4 m ρ c)
theorem W2_arg8 (c : Dev nD) : W2 m ρ c (Proc.devRef .tc main_arg8) = m ((c : Thread nD τ).loc main_arg8) := (W2_of_ne m ρ c main_arg8 (by decide)).trans (W1_arg8 m ρ c)
theorem W2_arg9 (c : Dev nD) : W2 m ρ c (Proc.devRef .tc main_arg9) = m ((c : Thread nD τ).loc main_arg9) := (W2_of_ne m ρ c main_arg9 (by decide)).trans (W1_arg9 m ρ c)
theorem W2_arg10 (c : Dev nD) : W2 m ρ c (Proc.devRef .tc main_arg10) = m ((c : Thread nD τ).loc main_arg10) := (W2_of_ne m ρ c main_arg10 (by decide)).trans (W1_arg10 m ρ c)
theorem W2_arg11 (c : Dev nD) : W2 m ρ c (Proc.devRef .tc main_arg11) = m ((c : Thread nD τ).loc main_arg11) := (W2_of_ne m ρ c main_arg11 (by decide)).trans (W1_arg11 m ρ c)
theorem W2_arg12 (c : Dev nD) : W2 m ρ c (Proc.devRef .tc main_arg12) = m ((c : Thread nD τ).loc main_arg12) := (W2_of_ne m ρ c main_arg12 (by decide)).trans (W1_arg12 m ρ c)

/-! ## The second stretch: from region 0's exit to region 1's entry -/

theorem W3_v21 (c : Dev nD) : W3 m ρ c (Proc.devRef .tc main_v21) = h1 m c := by
  refine Eq.trans ?_ (W2_v21 m ρ c); read_stretch1
theorem W3_arg3 (c : Dev nD) : W3 m ρ c (Proc.devRef .tc main_arg3) = m ((c : Thread nD τ).loc main_arg3) := by
  refine Eq.trans ?_ (W2_arg3 m ρ c); read_stretch1
theorem W3_arg4 (c : Dev nD) : W3 m ρ c (Proc.devRef .tc main_arg4) = m ((c : Thread nD τ).loc main_arg4) := by
  refine Eq.trans ?_ (W2_arg4 m ρ c); read_stretch1
theorem W3_arg10 (c : Dev nD) : W3 m ρ c (Proc.devRef .tc main_arg10) = m ((c : Thread nD τ).loc main_arg10) := by
  refine Eq.trans ?_ (W2_arg10 m ρ c); read_stretch1
theorem W3_arg11 (c : Dev nD) : W3 m ρ c (Proc.devRef .tc main_arg11) = m ((c : Thread nD τ).loc main_arg11) := by
  refine Eq.trans ?_ (W2_arg11 m ρ c); read_stretch1
theorem W3_arg12 (c : Dev nD) : W3 m ρ c (Proc.devRef .tc main_arg12) = m ((c : Thread nD τ).loc main_arg12) := by
  refine Eq.trans ?_ (W2_arg12 m ρ c); read_stretch1

set_option maxHeartbeats 2000000 in
/-- The neighbour means of the first layer. -/
theorem W3_v40 (c : Dev nD) : W3 m ρ c (Proc.devRef .tc main_v40)
    = Cert.Net.meanAgg (h1 m c) (m ((c : Thread nD τ).loc main_arg1)) (m ((c : Thread nD τ).loc main_arg2)) := by
  rw [← W2_v21 m ρ c, ← W2_arg1 m ρ c, ← W2_arg2 m ρ c]
  unfold Cert.Net.meanAgg; read_stretch1
theorem W3_v41 (c : Dev nD) : W3 m ρ c (Proc.devRef .tc main_v41) = Cert.Net.tr (m ((c : Thread nD τ).loc main_arg8)) := by
  rw [← W2_arg8 m ρ c]; unfold Cert.Net.tr; read_stretch1
theorem W3_v42 (c : Dev nD) : W3 m ρ c (Proc.devRef .tc main_v42) = Cert.Net.tr (m ((c : Thread nD τ).loc main_arg9)) := by
  rw [← W2_arg9 m ρ c]; unfold Cert.Net.tr; read_stretch1

/-! ## Region 1: the second layer -/

/-- The second layer of the network, as a function of the launch memory. -/
def h2 (c : Dev nD) : (⟨Cert.ReferenceIdeal.S50000x128, .f32⟩ : BufTy).Contents (Elt Ideal) :=
  Cert.Net.layer (h1 m c) (Cert.Net.meanAgg (h1 m c) (m ((c : Thread nD τ).loc main_arg1)) (m ((c : Thread nD τ).loc main_arg2))) (Cert.Net.tr (m ((c : Thread nD τ).loc main_arg8))) (Cert.Net.tr (m ((c : Thread nD τ).loc main_arg9))) (m ((c : Thread nD τ).loc main_arg10))

theorem W4_v43 (c : Dev nD) : W4 m ρ c (Proc.devRef .tc main_v43) = h2 m c := by
  refine (W4_arr m ρ c 5).trans ((Cert.KernelIdeal.Region1.value (V3 m ρ) c).trans ?_)
  show Cert.Net.layer (W3 m ρ c (Proc.devRef .tc main_v21)) (W3 m ρ c (Proc.devRef .tc main_v40)) (W3 m ρ c (Proc.devRef .tc main_v41))
    (W3 m ρ c (Proc.devRef .tc main_v42)) (W3 m ρ c (Proc.devRef .tc main_arg10)) = _
  rw [W3_v21, W3_v40, W3_v41, W3_v42, W3_arg10]; rfl

theorem W4_arg3 (c : Dev nD) : W4 m ρ c (Proc.devRef .tc main_arg3) = m ((c : Thread nD τ).loc main_arg3) := (W4_of_ne m ρ c main_arg3 (by decide)).trans (W3_arg3 m ρ c)
theorem W4_arg4 (c : Dev nD) : W4 m ρ c (Proc.devRef .tc main_arg4) = m ((c : Thread nD τ).loc main_arg4) := (W4_of_ne m ρ c main_arg4 (by decide)).trans (W3_arg4 m ρ c)
theorem W4_arg11 (c : Dev nD) : W4 m ρ c (Proc.devRef .tc main_arg11) = m ((c : Thread nD τ).loc main_arg11) := (W4_of_ne m ρ c main_arg11 (by decide)).trans (W3_arg11 m ρ c)
theorem W4_arg12 (c : Dev nD) : W4 m ρ c (Proc.devRef .tc main_arg12) = m ((c : Thread nD τ).loc main_arg12) := (W4_of_ne m ρ c main_arg12 (by decide)).trans (W3_arg12 m ρ c)

/-! ## The third stretch: the rows the readout takes -/

set_option maxHeartbeats 2000000 in
theorem W5_v50 (c : Dev nD) : W5 m ρ c (Proc.devRef .tc main_v50) = Cert.Net.stateRows (h2 m c) (m ((c : Thread nD τ).loc main_arg3)) := by
  rw [← W4_v43 m ρ c, ← W4_arg3 m ρ c]; unfold Cert.Net.stateRows; read_stretch2
set_option maxHeartbeats 2000000 in
theorem W5_v57 (c : Dev nD) : W5 m ρ c (Proc.devRef .tc main_v57) = Cert.Net.actionRow (h2 m c) (m ((c : Thread nD τ).loc main_arg4)) := by
  rw [← W4_v43 m ρ c, ← W4_arg4 m ρ c]; unfold Cert.Net.actionRow; read_stretch2
theorem W5_v58 (c : Dev nD) : W5 m ρ c (Proc.devRef .tc main_v58) = Cert.Net.trCol (m ((c : Thread nD τ).loc main_arg11)) := by
  rw [← W4_arg11 m ρ c]; unfold Cert.Net.trCol; read_stretch2
theorem W5_arg12 (c : Dev nD) : W5 m ρ c (Proc.devRef .tc main_arg12) = m ((c : Thread nD τ).loc main_arg12) := by
  refine Eq.trans ?_ (W4_arg12 m ρ c); read_stretch2

/-! ## Region 2: the readout, and the whole -/

/-- The result buffer after the run holds the network of the launch memory's thirteen argument arrays. -/
theorem result (c : Dev nD) : W6 m ρ c (Proc.devRef .tc main_v59)
    = Cert.Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W6_arr m ρ c 4).trans ((Cert.KernelIdeal.Region2.value (V5 m ρ) c).trans ?_)
  show Cert.Net.head (W5 m ρ c (Proc.devRef .tc main_v50)) (W5 m ρ c (Proc.devRef .tc main_v57)) (W5 m ρ c (Proc.devRef .tc main_v58))
    (W5 m ρ c (Proc.devRef .tc main_arg12)) = _
  rw [W5_v50, W5_v57, W5_v58, W5_arg12]
  unfold Cert.Net.net h2 h1; rfl

end Cert.KernelIdeal.Walk

end
-- ==== Proof.RefNet.lean ====
/-
  The reference program's result is the network of Net.lean at its argument arrays: its composed term is the
  stages' composition, operation for operation.
-/
import proofs.«173096_j90443421319518_1_alg».proof.Proof.Net
import proofs.«173096_j90443421319518_1_alg».proof.Proof.RefRun

noncomputable section

namespace Cert.ReferenceIdeal.RefNet

open Idealize.ShloMosaic Idealize.ShloMosaic.TcCoe Idealize.SL.Sem Cert.ReferenceIdeal Cert.ReferenceIdeal.Gen

variable {F : FTy → Type} [FloatOps F]

set_option maxRecDepth 8192 in
/-- The run's result term, unfolded, is `Net.net` of the thirteen argument arrays. -/
theorem result_eq (m : (ℓ : Loc nD τ sig) → Buf (Elt F) ℓ) (c : Dev nD) :
    Cert.ReferenceIdeal.ValueP.res_main_v76 m c
      = Cert.Net.net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) := by
  unfold Cert.ReferenceIdeal.ValueP.res_main_v76 Cert.Net.net Cert.Net.head Cert.Net.stateRows Cert.Net.actionRow Cert.Net.trCol
    Cert.Net.layer Cert.Net.tr Cert.Net.meanAgg
  rfl

end Cert.ReferenceIdeal.RefNet

end
-- ==== Proof.lean ====
/-
  The certificate of a two-layer graph convolution with a readout, against its plain reference.

  Both programs compute, from node features x (50000 × 128), an edge list (sources, targets), 256 state
  nodes, one action node and the weights: twice  h ← max (h · Wsᵀ + mean-of-in-neighbours(h) · Wnᵀ + b, 0),
  then  out = [column maxima of h at the state nodes | h at the action node] · Wfcᵀ + bfc  (1 × 1).
  The kernel program keeps the aggregation (gather, scatter-add, division by the clamped in-degree) and the row
  picks on the host, exactly as the reference has them, and runs each layer and the readout as a kernel region: a
  layer in ten blocks of 5000 rows, each block the matrix unit's two products from a zero accumulator plus the bias,
  clamped at zero; the readout in one step. Over the extended reals a change of float format is the identity, a matrix
  product from a zero accumulator is the contraction's finite sum, and a row block of a product depends only on its
  own rows, so block by block the regions hold the reference's layers (LayerIdx, Region0, Region1) and readout
  (Region2); the host stretches between them are the reference's own operations (HostWalk). No law used needs
  finiteness: the precondition is never opened.

  The three frames are the programs' runs with the results dropped; the idealization rewrote nothing, so
  `preserves` is trivial; `algebraic` states both runs' results as the same function `Net.net` of the arguments.
-/
import proofs.«173096_j90443421319518_1_alg».proof.Defs
import proofs.«173096_j90443421319518_1_alg».proof.Proof.Gen.Kernel
import proofs.«173096_j90443421319518_1_alg».proof.Proof.Gen.Kernel.Frame
import proofs.«173096_j90443421319518_1_alg».proof.Proof.Gen.KernelIdeal
import proofs.«173096_j90443421319518_1_alg».proof.Proof.Gen.KernelIdeal.Frame
import proofs.«173096_j90443421319518_1_alg».proof.Proof.Gen.ReferenceIdeal
import proofs.«173096_j90443421319518_1_alg».proof.Proof.Gen.Pre_finite_inputs
import proofs.«173096_j90443421319518_1_alg».proof.Proof.KRun
import proofs.«173096_j90443421319518_1_alg».proof.Proof.HostWalk
import proofs.«173096_j90443421319518_1_alg».proof.Proof.RefNet
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a line of host operations: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with `Net.net` of the argument arrays in their result buffers. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Walk.result m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11, e12⟩ := hagree c
    rw [Cert.ReferenceIdeal.RefNet.result_eq, e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
